-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1250000 : Shape := ⟨1, ![1250000]⟩
abbrev S40960 : Shape := ⟨1, ![40960]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S256x64 .f32) (main_arg9 : FVec F S64 .f32) (main_arg10 : FVec F S256x64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x64 .f32 := Host.absf main_arg8
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg10
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  main_v33

def fn {F : FTy → Type} [FloatOps F] (main_arg0 : FVec F S1000000x128 .f32) (main_arg1 : IVec S1250000 32) (main_arg2 : IVec S1250000 32) (main_arg3 : IVec S40960 32) (main_arg4 : IVec S40960 32) (main_arg5 : FVec F S128x256 .f32) (main_arg6 : FVec F S256 .f32) (main_arg7 : FVec F S128x256 .f32) (main_arg8 : FVec F S256x64 .f32) (main_arg9 : FVec F S64 .f32) (main_arg10 : FVec F S256x64 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x256 .f32 := Host.absf main_arg5
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg7
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg8 main_arg9 main_arg10 main_v13 main_v16
-- ==== Kernel.lean ====
abbrev S1000000x128 : Shape := ⟨2, ![1000000, 128]⟩
abbrev S1250000 : Shape := ⟨1, ![1250000]⟩
abbrev S40960 : Shape := ⟨1, ![40960]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S1250000x1 : Shape := ⟨2, ![1250000, 1]⟩
abbrev S1250000x128 : Shape := ⟨2, ![1250000, 128]⟩
abbrev S50000x128 : Shape := ⟨2, ![50000, 128]⟩
abbrev S50000 : Shape := ⟨1, ![50000]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S40960x1 : Shape := ⟨2, ![40960, 1]⟩
abbrev S40960x256 : Shape := ⟨2, ![40960, 256]⟩
abbrev S4096x256 : Shape := ⟨2, ![4096, 256]⟩
abbrev S4096 : Shape := ⟨1, ![4096]⟩
abbrev S4096x1 : Shape := ⟨2, ![4096, 1]⟩
abbrev S4096x64 : Shape := ⟨2, ![4096, 64]⟩
abbrev S1x64 : Shape := ⟨2, ![1, 64]⟩

abbrev nBuf : Space → Nat
  | .hbm => 65
  | .vmem => 15
  | .smem => 0
  | _ => 0

abbrev bufTy : (tb : Table) → Fin (tcTables nBuf tb) → BufTy
  | .hbm, ⟨0, _⟩ => ⟨S1000000x128, .f32⟩
  | .hbm, ⟨1, _⟩ => ⟨S1250000, .i32⟩
  | .hbm, ⟨2, _⟩ => ⟨S1250000, .i32⟩
  | .hbm, ⟨3, _⟩ => ⟨S40960, .i32⟩
  | .hbm, ⟨4, _⟩ => ⟨S40960, .i32⟩
  | .hbm, ⟨5, _⟩ => ⟨S128x256, .f32⟩
  | .hbm, ⟨6, _⟩ => ⟨S256, .f32⟩
  | .hbm, ⟨7, _⟩ => ⟨S128x256, .f32⟩
  | .hbm, ⟨8, _⟩ => ⟨S256x64, .f32⟩
  | .hbm, ⟨9, _⟩ => ⟨S64, .f32⟩
  | .hbm, ⟨10, _⟩ => ⟨S256x64, .f32⟩
  | .hbm, ⟨11, _⟩ => ⟨S_, .i32⟩
  | .hbm, ⟨12, _⟩ => ⟨S1250000, .i32⟩
  | .hbm, ⟨13, _⟩ => ⟨S1250000, .i1⟩
  | .hbm, ⟨14, _⟩ => ⟨S_, .i32⟩
  | .hbm, ⟨15, _⟩ => ⟨S1250000, .i32⟩
  | .hbm, ⟨16, _⟩ => ⟨S1250000, .i32⟩
  | .hbm, ⟨17, _⟩ => ⟨S1250000, .i32⟩
  | .hbm, ⟨18, _⟩ => ⟨S1250000x1, .i32⟩
  | .hbm, ⟨19, _⟩ => ⟨S1250000x128, .f32⟩
  | .hbm, ⟨20, _⟩ => ⟨S_, .f32⟩
  | .hbm, ⟨21, _⟩ => ⟨S50000x128, .f32⟩
  | .hbm, ⟨22, _⟩ => ⟨S1250000x1, .i32⟩
  | .hbm, ⟨23, _⟩ => ⟨S50000x128, .f32⟩
  | .hbm, ⟨24, _⟩ => ⟨S_, .f32⟩
  | .hbm, ⟨25, _⟩ => ⟨S1250000, .f32⟩
  | .hbm, ⟨26, _⟩ => ⟨S_, .f32⟩
  | .hbm, ⟨27, _⟩ => ⟨S50000, .f32⟩
  | .hbm, ⟨28, _⟩ => ⟨S1250000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S_, .i32⟩
  | .hbm, ⟨39, _⟩ => ⟨S40960, .i32⟩
  | .hbm, ⟨40, _⟩ => ⟨S40960, .i1⟩
  | .hbm, ⟨41, _⟩ => ⟨S_, .i32⟩
  | .hbm, ⟨42, _⟩ => ⟨S40960, .i32⟩
  | .hbm, ⟨43, _⟩ => ⟨S40960, .i32⟩
  | .hbm, ⟨44, _⟩ => ⟨S40960, .i32⟩
  | .hbm, ⟨45, _⟩ => ⟨S40960x1, .i32⟩
  | .hbm, ⟨46, _⟩ => ⟨S40960x256, .f32⟩
  | .hbm, ⟨47, _⟩ => ⟨S_, .f32⟩
  | .hbm, ⟨48, _⟩ => ⟨S4096x256, .f32⟩
  | .hbm, ⟨49, _⟩ => ⟨S40960x1, .i32⟩
  | .hbm, ⟨50, _⟩ => ⟨S4096x256, .f32⟩
  | .hbm, ⟨51, _⟩ => ⟨S_, .f32⟩
  | .hbm, ⟨52, _⟩ => ⟨S40960, .f32⟩
  | .hbm, ⟨53, _⟩ => ⟨S_, .f32⟩
  | .hbm, ⟨54, _⟩ => ⟨S4096, .f32⟩
  | .hbm, ⟨55, _⟩ => ⟨S40960x1, .i32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x1, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S4096x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S4096x256, .f32⟩
  | .local _ .vmem, ⟨10, _⟩ => ⟨S4096x256, .f32⟩
  | .local _ .vmem, ⟨11, _⟩ => ⟨S256x64, .f32⟩
  | .local _ .vmem, ⟨12, _⟩ => ⟨S64, .f32⟩
  | .local _ .vmem, ⟨13, _⟩ => ⟨S256x64, .f32⟩
  | .local _ .vmem, ⟨14, _⟩ => ⟨S4096x64, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S1000000x128_S50000x128_0_0 : S1000000x128.Slices ![0, 0] S50000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  slices_S50000x256_S4096x256_0_0 : S50000x256.Slices ![0, 0] S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  reduces_S4096x64_S4096 : S4096x64.Reduces [1] S4096
  shapeCasts_S4096_S4096x1 : S4096.ShapeCasts S4096x1
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  gather_S1000000x128_S1250000x1_S1250000x128_1_0_n_n_0_1_1128_wf : GatherDims.WF S1000000x128 S1250000x1 S1250000x128 [1] [0] [] [0] [] 1 ![1, 128]
  scatter_S50000x128_S1250000x1_S1250000x128_1_0_0_1_wf : ScatterDims.WF S50000x128 S1250000x1 S1250000x128 [1] [0] [0] 1
  scatter_S50000_S1250000x1_S1250000_n_0_0_1_wf : ScatterDims.WF S50000 S1250000x1 S1250000 [] [0] [0] 1
  dot_S2000x128_S128x256_S2000x256_1_0_0_1_n_n_wf : DotDims.WF S2000x128 S128x256 S2000x256 [1] [0] [0] [1] [] []
  gather_S50000x256_S40960x1_S40960x256_1_0_n_n_0_1_1256_wf : GatherDims.WF S50000x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x256.size a
  hwx1_0 : ∀ i : grid1.Coords, EltTy.bits .f32 = 32 ∨ (Rect.block (s := S4096x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S256x64.size a
  hwx1_4 : ∀ i : grid1.Coords, EltTy.bits .f32 = 32 ∨ (Rect.block (s := S256x64) S256x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x64.size a ≤ S4096x64.size a
  hwx1_5 : ∀ i : grid1.Coords, EltTy.bits .f32 = 32 ∨ (Rect.block (s := S4096x64) S4096x64.size (cc1_transform_5 i) (hinb1_5 i)).WholeWords (EltTy.packing .f32)

variable [Facts₀]

def gather_S1000000x128_S1250000x1_S1250000x128_1_0_n_n_0_1_1128 : GatherDims S1000000x128 S1250000x1 S1250000x128 where
  offsetDims := [1]
  collapsedSliceDims := [0]
  operandBatchingDims := []
  startIndicesBatchingDims := []
  startIndexMap := [0]
  indexVectorDim := 1
  sliceSizes := ![1, 128]
  wf := gather_S1000000x128_S1250000x1_S1250000x128_1_0_n_n_0_1_1128_wf
def scatter_S50000x128_S1250000x1_S1250000x128_1_0_0_1 : ScatterDims S50000x128 S1250000x1 S1250000x128 where
  updateWindowDims := [1]
  insertedWindowDims := [0]
  scatterDimsToOperandDims := [0]
  indexVectorDim := 1
  wf := scatter_S50000x128_S1250000x1_S1250000x128_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S40960x1_S40960x256_1_0_n_n_0_1_1256 : GatherDims S50000x256 S40960x1 S40960x256 where
  offsetDims := [1]
  collapsedSliceDims := [0]
  operandBatchingDims := []
  startIndicesBatchingDims := []
  startIndexMap := [0]
  indexVectorDim := 1
  sliceSizes := ![1, 256]
  wf := gather_S50000x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S4096x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S256x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S4096x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1250000 : Shape := ⟨1, ![1250000]⟩
abbrev S40960 : Shape := ⟨1, ![40960]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000x128 : Shape := ⟨2, ![50000, 128]⟩
abbrev S_ : Shape := ⟨0, ![]⟩
abbrev S1250000x1 : Shape := ⟨2, ![1250000, 1]⟩
abbrev S1250000x128 : Shape := ⟨2, ![1250000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S4096x256 : Shape := ⟨2, ![4096, 256]⟩
abbrev S40960x1 : Shape := ⟨2, ![40960, 1]⟩
abbrev S40960x256 : Shape := ⟨2, ![40960, 256]⟩
abbrev S4096 : Shape := ⟨1, ![4096]⟩
abbrev S4096x1 : Shape := ⟨2, ![4096, 1]⟩
abbrev S4096x64 : Shape := ⟨2, ![4096, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1250000, .i32⟩
  | .hbm, ⟨2, _⟩ => ⟨S1250000, .i32⟩
  | .hbm, ⟨3, _⟩ => ⟨S40960, .i32⟩
  | .hbm, ⟨4, _⟩ => ⟨S40960, .i32⟩
  | .hbm, ⟨5, _⟩ => ⟨S128x256, .f32⟩
  | .hbm, ⟨6, _⟩ => ⟨S256, .f32⟩
  | .hbm, ⟨7, _⟩ => ⟨S128x256, .f32⟩
  | .hbm, ⟨8, _⟩ => ⟨S256x64, .f32⟩
  | .hbm, ⟨9, _⟩ => ⟨S64, .f32⟩
  | .hbm, ⟨10, _⟩ => ⟨S256x64, .f32⟩
  | .hbm, ⟨11, _⟩ => ⟨S50000x128, .f32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x128, .f32⟩
  | .hbm, ⟨21, _⟩ => ⟨S_, .f32⟩
  | .hbm, ⟨22, _⟩ => ⟨S50000x128, .f32⟩
  | .hbm, ⟨23, _⟩ => ⟨S1250000x1, .i32⟩
  | .hbm, ⟨24, _⟩ => ⟨S50000x128, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S50000, .f32⟩
  | .hbm, ⟨29, _⟩ => ⟨S1250000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S4096x256, .f32⟩
  | .hbm, ⟨47, _⟩ => ⟨S_, .i32⟩
  | .hbm, ⟨48, _⟩ => ⟨S40960, .i32⟩
  | .hbm, ⟨49, _⟩ => ⟨S40960, .i1⟩
  | .hbm, ⟨50, _⟩ => ⟨S_, .i32⟩
  | .hbm, ⟨51, _⟩ => ⟨S40960, .i32⟩
  | .hbm, ⟨52, _⟩ => ⟨S40960, .i32⟩
  | .hbm, ⟨53, _⟩ => ⟨S40960, .i32⟩
  | .hbm, ⟨54, _⟩ => ⟨S40960x1, .i32⟩
  | .hbm, ⟨55, _⟩ => ⟨S40960x256, .f32⟩
  | .hbm, ⟨56, _⟩ => ⟨S_, .f32⟩
  | .hbm, ⟨57, _⟩ => ⟨S4096x256, .f32⟩
  | .hbm, ⟨58, _⟩ => ⟨S40960x1, .i32⟩
  | .hbm, ⟨59, _⟩ => ⟨S4096x256, .f32⟩
  | .hbm, ⟨60, _⟩ => ⟨S_, .f32⟩
  | .hbm, ⟨61, _⟩ => ⟨S40960, .f32⟩
  | .hbm, ⟨62, _⟩ => ⟨S_, .f32⟩
  | .hbm, ⟨63, _⟩ => ⟨S4096, .f32⟩
  | .hbm, ⟨64, _⟩ => ⟨S40960x1, .i32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1, .f32⟩
  | .hbm, ⟨70, _⟩ => ⟨S4096x256, .f32⟩
  | .hbm, ⟨71, _⟩ => ⟨S4096x256, .f32⟩
  | .hbm, ⟨72, _⟩ => ⟨S4096x64, .f32⟩
  | .hbm, ⟨73, _⟩ => ⟨S1x64, .f32⟩
  | .hbm, ⟨74, _⟩ => ⟨S4096x64, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S4096x1, .f32⟩
  | .hbm, ⟨84, _⟩ => ⟨S4096x64, .f32⟩
  | .hbm, ⟨85, _⟩ => ⟨S4096x64, .f32⟩
  | .hbm, ⟨86, _⟩ => ⟨S4096x64, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1, .f32⟩
  | .hbm, ⟨91, _⟩ => ⟨S4096x64, .f32⟩
  | .hbm, ⟨92, _⟩ => ⟨S4096x64, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v53 : Ref sig .tc := ⟨.hbm, 92, rfl⟩

abbrev nD : Nat := 1
abbrev τ : Topo := Topo.v7x

variable {F : FTy → Type} [FloatOps F]

class Facts₀ : Prop where
  slices_S1000000x128_S50000x128_0_0 : S1000000x128.Slices ![0, 0] S50000x128
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S50000x256_S4096x256_0_0 : S50000x256.Slices ![0, 0] S4096x256
  bcast_S_S40960 : S_.BroadcastsInDim S40960 (![] : Fin 0 → Fin S40960.rank)
  bcast_S40960_S40960x1_0 : S40960.BroadcastsInDim S40960x1 (![0] : Fin 1 → Fin S40960x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  reducesTo_S4096x64_S4096_d1 : S4096x64.ReducesTo [1] S4096
  h_S_ : 0 < S_.numel
  bcast_S4096x1_S4096x64_0_1 : S4096x1.BroadcastsInDim S4096x64 (![0, 1] : Fin 2 → Fin S4096x64.rank)
  gather_S1000000x128_S1250000x1_S1250000x128_1_0_n_n_0_1_1128_wf : GatherDims.WF S1000000x128 S1250000x1 S1250000x128 [1] [0] [] [0] [] 1 ![1, 128]
  scatter_S50000x128_S1250000x1_S1250000x128_1_0_0_1_wf : ScatterDims.WF S50000x128 S1250000x1 S1250000x128 [1] [0] [0] 1
  scatter_S50000_S1250000x1_S1250000_n_0_0_1_wf : ScatterDims.WF S50000 S1250000x1 S1250000 [] [0] [0] 1
  dot_S50000x128_S128x256_S50000x256_1_0_0_1_n_n_wf : DotDims.WF S50000x128 S128x256 S50000x256 [1] [0] [0] [1] [] []
  gather_S50000x256_S40960x1_S40960x256_1_0_n_n_0_1_1256_wf : GatherDims.WF S50000x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x64_S4096x64_1_0_0_1_n_n_wf : DotDims.WF S4096x256 S256x64 S4096x64 [1] [0] [0] [1] [] []

variable [Facts₀]

def gather_S1000000x128_S1250000x1_S1250000x128_1_0_n_n_0_1_1128 : GatherDims S1000000x128 S1250000x1 S1250000x128 where
  offsetDims := [1]
  collapsedSliceDims := [0]
  operandBatchingDims := []
  startIndicesBatchingDims := []
  startIndexMap := [0]
  indexVectorDim := 1
  sliceSizes := ![1, 128]
  wf := gather_S1000000x128_S1250000x1_S1250000x128_1_0_n_n_0_1_1128_wf
def scatter_S50000x128_S1250000x1_S1250000x128_1_0_0_1 : ScatterDims S50000x128 S1250000x1 S1250000x128 where
  updateWindowDims := [1]
  insertedWindowDims := [0]
  scatterDimsToOperandDims := [0]
  indexVectorDim := 1
  wf := scatter_S50000x128_S1250000x1_S1250000x128_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S40960x1_S40960x256_1_0_n_n_0_1_1256 : GatherDims S50000x256 S40960x1 S40960x256 where
  offsetDims := [1]
  collapsedSliceDims := [0]
  operandBatchingDims := []
  startIndicesBatchingDims := []
  startIndexMap := [0]
  indexVectorDim := 1
  sliceSizes := ![1, 256]
  wf := gather_S50000x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

class Facts : Prop extends Facts₀ where

variable [Facts]
-- ==== Proof.RefChain.lean ====
/-
  The two graph-convolution layers of the reference, as named functions of arrays.

  A layer first AGGREGATES: every edge (s, d) carries row s of the node features to node d; rows arriving at the same
  node are summed, and the sum is divided by the number of arrivals (at least one, so that a node with no incoming edge
  keeps the zero row). A negative source index counts from the end of the table. Then it COMBINES: the aggregated rows
  times one weight matrix, plus a bias row, plus the node's own rows times a second weight matrix. Layer 0 ends in
  max(·, 0); layer 1 in a row-wise log-softmax: subtract the row's maximum, then subtract the logarithm of the row's sum
  of exponentials.

  Nothing is proved about the aggregation: both programs apply the very same chain, so it is carried as one function.
-/
import proofs.«146863_j87256555586107_1_alg».proof.Proof.Gen.ReferenceIdeal

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- Layer 0's mean of the neighbours' rows: [1000000, 128] features, 1250000 edges, 50000 target nodes. -/
def agg0 (x : (⟨S1000000x128, .f32⟩ : BufTy).Contents (Elt F)) (src dst : (⟨S1250000, .i32⟩ : BufTy).Contents (Elt F)) :
    (⟨S50000x128, .f32⟩ : BufTy).Contents (Elt F) :=
  Host.divf (Host.scatterAdd scatter_S50000x128_S1250000x1_S1250000x128_1_0_0_1 (broadcastInDim S50000x128 ![] bcast_S_S50000x128 (constant S_ .f32 0x00000000#32)) (broadcastInDim S1250000x1 ![0] bcast_S1250000_S1250000x1_0 dst) (Host.gather gather_S1000000x128_S1250000x1_S1250000x128_1_0_n_n_0_1_1128 x (broadcastInDim S1250000x1 ![0] bcast_S1250000_S1250000x1_0 (select (cmpi .slt src (broadcastInDim S1250000 ![] bcast_S_S1250000 (constantI S_ 32 0#32))) (addi src (broadcastInDim S1250000 ![] bcast_S_S1250000 (constantI S_ 32 1000000#32))) src)))) (broadcastInDim S50000x128 ![0, 1] bcast_S50000x1_S50000x128_0_1 (broadcastInDim S50000x1 ![0] bcast_S50000_S50000x1_0 (maximumf (Host.scatterAdd scatter_S50000_S1250000x1_S1250000_n_0_0_1 (broadcastInDim S50000 ![] bcast_S_S50000 (constant S_ .f32 0x00000000#32)) (broadcastInDim S1250000x1 ![0] bcast_S1250000_S1250000x1_0 dst) (broadcastInDim S1250000 ![] bcast_S_S1250000 (constant S_ .f32 0x3F800000#32))) (broadcastInDim S50000 ![] bcast_S_S50000 (constant S_ .f32 0x3F800000#32)))))

/-- The first 50000 rows of the features: layer 0's target nodes. -/
def head0 (x : (⟨S1000000x128, .f32⟩ : BufTy).Contents (Elt F)) : (⟨S50000x128, .f32⟩ : BufTy).Contents (Elt F) :=
  extractStridedSlice S50000x128 ![0, 0] x slices_S1000000x128_S50000x128_0_0

/-- Layer 0's combine as the reference groups it: max((a·Wl + b) + x·Wr, 0). -/
def lay0 (a x0 : (⟨S50000x128, .f32⟩ : BufTy).Contents (Elt F)) (Wl : (⟨S128x256, .f32⟩ : BufTy).Contents (Elt F))
    (b : (⟨S256, .f32⟩ : BufTy).Contents (Elt F)) (Wr : (⟨S128x256, .f32⟩ : BufTy).Contents (Elt F)) :
    (⟨S50000x256, .f32⟩ : BufTy).Contents (Elt F) :=
  maximumf (addf (addf (Host.dotGeneral dot_S50000x128_S128x256_S50000x256_1_0_0_1_n_n none a Wl) (broadcastInDim S50000x256 ![0, 1] bcast_S1x256_S50000x256_0_1 (broadcastInDim S1x256 ![1] bcast_S256_S1x256_1 b))) (Host.dotGeneral dot_S50000x128_S128x256_S50000x256_1_0_0_1_n_n none x0 Wr)) (broadcastInDim S50000x256 ![] bcast_S_S50000x256 (constant S_ .f32 0x00000000#32))

/-- Layer 1's mean of the neighbours' rows: [50000, 256] hidden features, 40960 edges, 4096 target nodes. -/
def agg1 (h : (⟨S50000x256, .f32⟩ : BufTy).Contents (Elt F)) (src dst : (⟨S40960, .i32⟩ : BufTy).Contents (Elt F)) :
    (⟨S4096x256, .f32⟩ : BufTy).Contents (Elt F) :=
  Host.divf (Host.scatterAdd scatter_S4096x256_S40960x1_S40960x256_1_0_0_1 (broadcastInDim S4096x256 ![] bcast_S_S4096x256 (constant S_ .f32 0x00000000#32)) (broadcastInDim S40960x1 ![0] bcast_S40960_S40960x1_0 dst) (Host.gather gather_S50000x256_S40960x1_S40960x256_1_0_n_n_0_1_1256 h (broadcastInDim S40960x1 ![0] bcast_S40960_S40960x1_0 (select (cmpi .slt src (broadcastInDim S40960 ![] bcast_S_S40960 (constantI S_ 32 0#32))) (addi src (broadcastInDim S40960 ![] bcast_S_S40960 (constantI S_ 32 50000#32))) src)))) (broadcastInDim S4096x256 ![0, 1] bcast_S4096x1_S4096x256_0_1 (broadcastInDim S4096x1 ![0] bcast_S4096_S4096x1_0 (maximumf (Host.scatterAdd scatter_S4096_S40960x1_S40960_n_0_0_1 (broadcastInDim S4096 ![] bcast_S_S4096 (constant S_ .f32 0x00000000#32)) (broadcastInDim S40960x1 ![0] bcast_S40960_S40960x1_0 dst) (broadcastInDim S40960 ![] bcast_S_S40960 (constant S_ .f32 0x3F800000#32))) (broadcastInDim S4096 ![] bcast_S_S4096 (constant S_ .f32 0x3F800000#32)))))

/-- The first 4096 rows of the hidden features: layer 1's target nodes. -/
def head1 (h : (⟨S50000x256, .f32⟩ : BufTy).Contents (Elt F)) : (⟨S4096x256, .f32⟩ : BufTy).Contents (Elt F) :=
  extractStridedSlice S4096x256 ![0, 0] h slices_S50000x256_S4096x256_0_0

/-- Layer 1's logits as the reference groups them: (a·Wl + b) + h·Wr. -/
def logits (a h0 : (⟨S4096x256, .f32⟩ : BufTy).Contents (Elt F)) (Wl : (⟨S256x64, .f32⟩ : BufTy).Contents (Elt F))
    (b : (⟨S64, .f32⟩ : BufTy).Contents (Elt F)) (Wr : (⟨S256x64, .f32⟩ : BufTy).Contents (Elt F)) :
    (⟨S4096x64, .f32⟩ : BufTy).Contents (Elt F) :=
  addf (addf (Host.dotGeneral dot_S4096x256_S256x64_S4096x64_1_0_0_1_n_n none a Wl) (broadcastInDim S4096x64 ![0, 1] bcast_S1x64_S4096x64_0_1 (broadcastInDim S1x64 ![1] bcast_S64_S1x64_1 b))) (Host.dotGeneral dot_S4096x256_S256x64_S4096x64_1_0_0_1_n_n none h0 Wr)

/-- A row less its maximum (the maximum taken from −∞, then once more against −∞). -/
def shifted (z : (⟨S4096x64, .f32⟩ : BufTy).Contents (Elt F)) : (⟨S4096x64, .f32⟩ : BufTy).Contents (Elt F) :=
  subf z (broadcastInDim S4096x64 ![0, 1] bcast_S4096x1_S4096x64_0_1 (broadcastInDim S4096x1 ![0] bcast_S4096_S4096x1_0 (maximumf (broadcastInDim S4096 ![] bcast_S_S4096 (constant S_ .f32 0xFF800000#32)) (Host.reduce FloatOps.maximumf z (constant S_ .f32 0xFF800000#32) reducesTo_S4096x64_S4096_d1 h_S_))))

/-- The row-wise log-softmax as the reference computes it. -/
def logSoftmax (z : (⟨S4096x64, .f32⟩ : BufTy).Contents (Elt F)) : (⟨S4096x64, .f32⟩ : BufTy).Contents (Elt F) :=
  subf (shifted z) (broadcastInDim S4096x64 ![0, 1] bcast_S4096x1_S4096x64_0_1 (Host.log (broadcastInDim S4096x1 ![0] bcast_S4096_S4096x1_0 (Host.reduceAdd (Host.exp (shifted z)) (constant S_ .f32 0x00000000#32) reducesTo_S4096x64_S4096_d1 h_S_))))

/-- The hidden features after layer 0, from the program's arguments. -/
def hidden (x : (⟨S1000000x128, .f32⟩ : BufTy).Contents (Elt F)) (src0 dst0 : (⟨S1250000, .i32⟩ : BufTy).Contents (Elt F))
    (Wl0 : (⟨S128x256, .f32⟩ : BufTy).Contents (Elt F)) (b0 : (⟨S256, .f32⟩ : BufTy).Contents (Elt F))
    (Wr0 : (⟨S128x256, .f32⟩ : BufTy).Contents (Elt F)) : (⟨S50000x256, .f32⟩ : BufTy).Contents (Elt F) :=
  lay0 (agg0 x src0 dst0) (head0 x) Wl0 b0 Wr0

/-- The whole reference: two layers, the second's logits through the log-softmax. -/
def whole (x : (⟨S1000000x128, .f32⟩ : BufTy).Contents (Elt F)) (src0 dst0 : (⟨S1250000, .i32⟩ : BufTy).Contents (Elt F))
    (src1 dst1 : (⟨S40960, .i32⟩ : BufTy).Contents (Elt F))
    (Wl0 : (⟨S128x256, .f32⟩ : BufTy).Contents (Elt F)) (b0 : (⟨S256, .f32⟩ : BufTy).Contents (Elt F))
    (Wr0 : (⟨S128x256, .f32⟩ : BufTy).Contents (Elt F)) (Wl1 : (⟨S256x64, .f32⟩ : BufTy).Contents (Elt F))
    (b1 : (⟨S64, .f32⟩ : BufTy).Contents (Elt F)) (Wr1 : (⟨S256x64, .f32⟩ : BufTy).Contents (Elt F)) :
    (⟨S4096x64, .f32⟩ : BufTy).Contents (Elt F) :=
  logSoftmax (logits (agg1 (hidden x src0 dst0 Wl0 b0 Wr0) src1 dst1) (head1 (hidden x src0 dst0 Wl0 b0 Wr0)) Wl1 b1 Wr1)

end Cert.ReferenceIdeal.Chain

end
-- ==== Proof.RefWhole.lean ====
/-
  The reference's run, stated over the named layers: its result array is the two-layer function `Chain.whole` of the
  program's eleven arguments (the composed term of its run is that function, unfolded).
-/
import proofs.«146863_j87256555586107_1_alg».proof.Proof.RefRunP
import proofs.«146863_j87256555586107_1_alg».proof.Proof.RefChain

noncomputable section

namespace Cert.ReferenceIdeal.RefWhole

open Cert.ReferenceIdeal Cert.ReferenceIdeal.Gen Idealize.ShloMosaic Idealize.ShloMosaic.TcCoe Idealize.SL.Sem Idealize.ShloMosaic.StableHlo

variable {F : FTy → Type} [FloatOps F]

set_option maxRecDepth 262144 in
/-- The run's composed result term is the two layers applied to the arguments. -/
theorem res_eq (m : (ℓ : Loc nD τ sig) → Buf (Elt F) ℓ) (c : Dev nD) :
    ValueP.res_main_v53 m c = Chain.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold ValueP.res_main_v53 Chain.whole Chain.hidden Chain.logSoftmax Chain.shifted Chain.logits Chain.lay0 Chain.agg1 Chain.agg0 Chain.head0 Chain.head1
  rfl

/-- Every weakly fair execution of the reference terminates with its result at the two layers of the arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = Chain.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (res_eq m c), (h c).2⟩) (ValueP.run m ρ)

end Cert.ReferenceIdeal.RefWhole

end
-- ==== Proof.KerHost.lean ====
/-
  What each region of the kernel's program finds in its operand arrays. Before the first region the host aggregates the
  neighbours' rows (`agg0`) and takes the first 50000 rows of the features (`head0`); between the regions it does the
  same with the first region's output array in the features' place (`agg1`, `head1`). These are the very operations
  the reference applies, so they are read as the same named functions; the weights and biases pass through untouched.
-/
import proofs.«146863_j87256555586107_1_alg».proof.Proof.Gen.KernelIdeal.Frame
import proofs.«146863_j87256555586107_1_alg».proof.Proof.RefChain

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- No operation before the first region writes argument 3. -/
theorem W1_arg3 (c : Dev nD) : W1 m ρ c (Proc.devRef .tc main_arg3) = m ((c.tc : Thread nD τ).loc main_arg3) := by
  show StableHlo.after hostOps0 (W0 m ρ c) (Proc.devRef .tc main_arg3) = _
  after_results_simp <;> rfl

/-- No operation before the first region writes argument 4. -/
theorem W1_arg4 (c : Dev nD) : W1 m ρ c (Proc.devRef .tc main_arg4) = m ((c.tc : Thread nD τ).loc main_arg4) := by
  show StableHlo.after hostOps0 (W0 m ρ c) (Proc.devRef .tc main_arg4) = _
  after_results_simp <;> rfl

/-- No operation before the first region writes argument 5. -/
theorem W1_arg5 (c : Dev nD) : W1 m ρ c (Proc.devRef .tc main_arg5) = m ((c.tc : Thread nD τ).loc main_arg5) := by
  show StableHlo.after hostOps0 (W0 m ρ c) (Proc.devRef .tc main_arg5) = _
  after_results_simp <;> rfl

/-- No operation before the first region writes argument 6. -/
theorem W1_arg6 (c : Dev nD) : W1 m ρ c (Proc.devRef .tc main_arg6) = m ((c.tc : Thread nD τ).loc main_arg6) := by
  show StableHlo.after hostOps0 (W0 m ρ c) (Proc.devRef .tc main_arg6) = _
  after_results_simp <;> rfl

/-- No operation before the first region writes argument 7. -/
theorem W1_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl

/-- No operation before the first region writes argument 8. -/
theorem W1_arg8 (c : Dev nD) : W1 m ρ c (Proc.devRef .tc main_arg8) = m ((c.tc : Thread nD τ).loc main_arg8) := by
  show StableHlo.after hostOps0 (W0 m ρ c) (Proc.devRef .tc main_arg8) = _
  after_results_simp <;> rfl

/-- No operation before the first region writes argument 9. -/
theorem W1_arg9 (c : Dev nD) : W1 m ρ c (Proc.devRef .tc main_arg9) = m ((c.tc : Thread nD τ).loc main_arg9) := by
  show StableHlo.after hostOps0 (W0 m ρ c) (Proc.devRef .tc main_arg9) = _
  after_results_simp <;> rfl

/-- No operation before the first region writes argument 10. -/
theorem W1_arg10 (c : Dev nD) : W1 m ρ c (Proc.devRef .tc main_arg10) = m ((c.tc : Thread nD τ).loc main_arg10) := by
  show StableHlo.after hostOps0 (W0 m ρ c) (Proc.devRef .tc main_arg10) = _
  after_results_simp <;> rfl

/-- The first region leaves argument 3 alone. -/
theorem W2_arg3 (c : Dev nD) : W2 m ρ c (Proc.devRef .tc main_arg3) = m ((c.tc : Thread nD τ).loc main_arg3) :=
  (W2_of_ne m ρ c main_arg3 (by decide)).trans (W1_arg3 m ρ c)

/-- The first region leaves argument 4 alone. -/
theorem W2_arg4 (c : Dev nD) : W2 m ρ c (Proc.devRef .tc main_arg4) = m ((c.tc : Thread nD τ).loc main_arg4) :=
  (W2_of_ne m ρ c main_arg4 (by decide)).trans (W1_arg4 m ρ c)

/-- The first region leaves argument 8 alone. -/
theorem W2_arg8 (c : Dev nD) : W2 m ρ c (Proc.devRef .tc main_arg8) = m ((c.tc : Thread nD τ).loc main_arg8) :=
  (W2_of_ne m ρ c main_arg8 (by decide)).trans (W1_arg8 m ρ c)

/-- The first region leaves argument 9 alone. -/
theorem W2_arg9 (c : Dev nD) : W2 m ρ c (Proc.devRef .tc main_arg9) = m ((c.tc : Thread nD τ).loc main_arg9) :=
  (W2_of_ne m ρ c main_arg9 (by decide)).trans (W1_arg9 m ρ c)

/-- The first region leaves argument 10 alone. -/
theorem W2_arg10 (c : Dev nD) : W2 m ρ c (Proc.devRef .tc main_arg10) = m ((c.tc : Thread nD τ).loc main_arg10) :=
  (W2_of_ne m ρ c main_arg10 (by decide)).trans (W1_arg10 m ρ c)

/-- The first region's weights and bias are the arguments. -/
theorem V1_arg5 (c : Dev nD) : V1 m ρ c main_arg5 = m ((c.tc : Thread nD τ).loc main_arg5) := W1_arg5 m ρ c
theorem V1_arg6 (c : Dev nD) : V1 m ρ c main_arg6 = m ((c.tc : Thread nD τ).loc main_arg6) := W1_arg6 m ρ c
theorem V1_arg7 (c : Dev nD) : V1 m ρ c main_arg7 = m ((c.tc : Thread nD τ).loc main_arg7) := W1_arg7 m ρ c

/-- The first region's first operand: the mean of the neighbours' feature rows. -/
theorem V1_v18 (c : Dev nD) : V1 m ρ c main_v18 = Cert.ReferenceIdeal.Chain.agg0 (m ((c.tc : Thread nD τ).loc main_arg0)) (m ((c.tc : Thread nD τ).loc main_arg1)) (m ((c.tc : Thread nD τ).loc main_arg2)) := by
  show StableHlo.after hostOps0 (W0 m ρ c) (Proc.devRef .tc main_v18) = _
  after_results_simp <;> rfl

/-- The first region's second operand: the target nodes' own feature rows. -/
theorem V1_v19 (c : Dev nD) : V1 m ρ c main_v19 = Cert.ReferenceIdeal.Chain.head0 (m ((c.tc : Thread nD τ).loc main_arg0)) := by
  show StableHlo.after hostOps0 (W0 m ρ c) (Proc.devRef .tc main_v19) = _
  after_results_simp <;> rfl

/-- No operation between the regions writes argument 8. -/
theorem V3_arg8 (c : Dev nD) : V3 m ρ c main_arg8 = m ((c.tc : Thread nD τ).loc main_arg8) := by
  show StableHlo.after hostOps1 (W2 m ρ c) (Proc.devRef .tc main_arg8) = _
  refine Eq.trans ?_ (W2_arg8 m ρ c)
  after_results_simp <;> rfl

/-- No operation between the regions writes argument 9. -/
theorem V3_arg9 (c : Dev nD) : V3 m ρ c main_arg9 = m ((c.tc : Thread nD τ).loc main_arg9) := by
  show StableHlo.after hostOps1 (W2 m ρ c) (Proc.devRef .tc main_arg9) = _
  refine Eq.trans ?_ (W2_arg9 m ρ c)
  after_results_simp <;> rfl

/-- No operation between the regions writes argument 10. -/
theorem V3_arg10 (c : Dev nD) : V3 m ρ c main_arg10 = m ((c.tc : Thread nD τ).loc main_arg10) := by
  show StableHlo.after hostOps1 (W2 m ρ c) (Proc.devRef .tc main_arg10) = _
  refine Eq.trans ?_ (W2_arg10 m ρ c)
  after_results_simp <;> rfl

/-- The second region's first operand: the mean of the neighbours' rows of the first region's output. -/
theorem V3_v39 (c : Dev nD) : V3 m ρ c main_v39 = Cert.ReferenceIdeal.Chain.agg1 (W2 m ρ c (Proc.devRef .tc main_v20)) (m ((c.tc : Thread nD τ).loc main_arg3)) (m ((c.tc : Thread nD τ).loc main_arg4)) := by
  show StableHlo.after hostOps1 (W2 m ρ c) (Proc.devRef .tc main_v39) = _
  rw [← W2_arg3 m ρ c, ← W2_arg4 m ρ c]
  after_results_simp <;> rfl

/-- The second region's second operand: the first 4096 rows of the first region's output. -/
theorem V3_v40 (c : Dev nD) : V3 m ρ c main_v40 = Cert.ReferenceIdeal.Chain.head1 (W2 m ρ c (Proc.devRef .tc main_v20)) := by
  show StableHlo.after hostOps1 (W2 m ρ c) (Proc.devRef .tc main_v40) = _
  after_results_simp <;> rfl

end Cert.KernelIdeal.HostRead

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.LibKeepdims.lean ====
/-
  A per-row quantity kept as a column: an [a] vector laid out as an [a, 1] column, and that column spread over the b
  entries of each row of an [a, b] array — read at an entry, for both spellings of each step (a vector shape cast followed by
  a vector broadcast; the host's two `broadcast_in_dim`s). Likewise a [b] vector as the one row [1, b] spread over a
  rows by the host's `broadcast_in_dim`, and a scalar spread over any shape. Stated for every a and b.
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's [a] → [a, 1] (`broadcast_in_dim` along axis 0) reads, at (p, u), the operand at p. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's [a, 1] → [a, b] (`broadcast_in_dim` along axes 0 and 1) reads, at (p, c), the column's entry of row p. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's [b] → [1, b] (`broadcast_in_dim` along axis 1) reads, at (u, c), the operand at c. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's [1, b] → [a, b] (`broadcast_in_dim` along axes 0 and 1) reads, at (p, c), the one row at c. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A scalar spread over any shape reads, at every index, the scalar. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 fun ax => ax.elim0

end Idealize.ShloMosaic.Keepdims

end
-- ==== Proof.Combine.lean ====
/-
  The one linear-combine step both layers share, read at an entry on the extended reals.

  The kernel computes (a·Wl + x·Wr) + b with its operands rounded to bf16 first; on the extended reals a rounding is the
  identity, and a product into a zero accumulator is the plain sum over the contracted axis. The reference computes
  (a·Wl + b) + x·Wr. Addition of extended reals is commutative and associative (no subtraction, no distributivity is
  used), so the two agree at every entry, whatever the entries are — infinite ones included.
-/
import proofs.«146863_j87256555586107_1_alg».proof.Proof.LibPlainDot
import proofs.«146863_j87256555586107_1_alg».proof.Proof.LibKeepdims
import Idealize.ShloMosaic.PureOps.Ideal.Laws
import Idealize.ShloMosaic.Lib.ValueLayout
import Idealize.ShloMosaic.Lib.Pipeline.Value
import Idealize.ShloMosaic.Lib.ValueIdx

noncomputable section

namespace Cert.Combine

open Idealize.ShloMosaic Idealize.ShloMosaic.ValueIdx Idealize.ShloMosaic.Keepdims

variable {R K C : ℕ} {d : DotDims ⟨2, ![R, K]⟩ ⟨2, ![K, C]⟩ ⟨2, ![R, C]⟩}

/-- The kernel's grouping at (p, q): the two sums first, then the bias. -/
theorem kernel_apply (hd : PlainDot.IsPlain d)
    (a x : FVec Ideal ⟨2, ![R, K]⟩ .f32) (Wl Wr : FVec Ideal ⟨2, ![K, C]⟩ .f32) (b : FVec Ideal ⟨1, ![C]⟩ .f32)
    (h1 : (⟨2, ![R, K]⟩ : Shape).ShapeCasts ⟨2, ![R, K]⟩) (h2 : FTy.bf16.bits < FTy.f32.bits)
    (h3 : (⟨1, ![C]⟩ : Shape).ShapeCasts ⟨2, ![1, C]⟩) (h4 : (⟨2, ![1, C]⟩ : Shape).Broadcasts ⟨2, ![R, C]⟩)
    (p : Fin R) (q : Fin C) :
    addf (addf (matmul d none (truncf .bf16 (shapeCast ⟨2, ![R, K]⟩ a h1) h2) (truncf .bf16 Wl h2) (constant ⟨2, ![R, C]⟩ .f32 0x00000000#32))
               (matmul d none (truncf .bf16 (shapeCast ⟨2, ![R, K]⟩ x h1) h2) (truncf .bf16 Wr h2) (constant ⟨2, ![R, C]⟩ .f32 0x00000000#32)))
         (broadcastTo ⟨2, ![R, C]⟩ (shapeCast ⟨2, ![1, C]⟩ b h3) h4) (ix2 p q)
      = (∑ k : Fin K, a (ix2 p k) * Wl (ix2 k q) + ∑ k : Fin K, x (ix2 p k) * Wr (ix2 k q)) + b (ix1 q) := by
  show (FloatOps.matmul d none _ _ _ (ix2 p q) + FloatOps.matmul d none _ _ _ (ix2 p q)) + broadcastTo _ _ h4 (ix2 p q) = _
  rw [PlainDot.matmul_zero_apply hd, PlainDot.matmul_zero_apply hd, broadcastTo_1b_ab_apply, shapeCast_a_1a_apply,
    shapeCast_self, shapeCast_self]
  rfl

/-- The reference's grouping at (p, q): the first sum and the bias, then the second sum. -/
theorem reference_apply (hd : PlainDot.IsPlain d)
    (a x : FVec Ideal ⟨2, ![R, K]⟩ .f32) (Wl Wr : FVec Ideal ⟨2, ![K, C]⟩ .f32) (b : FVec Ideal ⟨1, ![C]⟩ .f32)
    (h3 : (⟨1, ![C]⟩ : Shape).BroadcastsInDim ⟨2, ![1, C]⟩ ![1]) (h4 : (⟨2, ![1, C]⟩ : Shape).BroadcastsInDim ⟨2, ![R, C]⟩ ![0, 1])
    (p : Fin R) (q : Fin C) :
    addf (addf (Host.dotGeneral d none a Wl) (broadcastInDim ⟨2, ![R, C]⟩ ![0, 1] h4 (broadcastInDim ⟨2, ![1, C]⟩ ![1] h3 b)))
         (Host.dotGeneral d none x Wr) (ix2 p q)
      = (∑ k : Fin K, a (ix2 p k) * Wl (ix2 k q) + b (ix1 q)) + ∑ k : Fin K, x (ix2 p k) * Wr (ix2 k q) := by
  show (FloatOps.dotGeneral d none .single a Wl (ix2 p q) + broadcastInDim _ _ h4 _ (ix2 p q)) + FloatOps.dotGeneral d none .single x Wr (ix2 p q) = _
  rw [PlainDot.dotGeneral_apply hd, PlainDot.dotGeneral_apply hd, broadcastInDim_1b_ab_apply, broadcastInDim_b_1b_apply]

/-- The two groupings agree. -/
theorem regroup (s1 s2 b : EReal) : (s1 + s2) + b = (s1 + b) + s2 := add_right_comm s1 s2 b

end Cert.Combine

end
-- ==== Proof.Softmax.lean ====
/-
  The row-wise log-softmax of a [4096, 64] array, in the kernel's spelling and in the reference's, on the extended reals.

  Both subtract from each entry its row's maximum M (a fold of max from −∞ over the row's 64 entries; the reference takes
  max(−∞, M) once more, which is M), and then subtract log of the row's sum of exp of the shifted entries (the reference's sum
  starts from the literal 0). The kernel keeps M and the log-sum as [4096] vectors cast to [4096, 1] columns and broadcasts
  them; the reference uses two broadcast_in_dim steps. Entry by entry the two are the same expression.
-/
import proofs.«146863_j87256555586107_1_alg».proof.Proof.RefChain
import proofs.«146863_j87256555586107_1_alg».proof.Proof.LibKeepdims
import Idealize.ShloMosaic.PureOps.Ideal.Laws
import Idealize.ShloMosaic.PureOps.Reduce
import Idealize.ShloMosaic.Lib.Pipeline.Value
import Idealize.ShloMosaic.Lib.ValueIdx

noncomputable section

namespace Cert.Softmax

open Idealize.ShloMosaic Idealize.ShloMosaic.ValueIdx Idealize.ShloMosaic.Keepdims

/-- The logits' shape, a row quantity's shape, the same kept as a column, and the scalar shape. -/
abbrev S2 : Shape := ⟨2, ![4096, 64]⟩
abbrev S1 : Shape := ⟨1, ![4096]⟩
abbrev Sc : Shape := ⟨2, ![4096, 1]⟩
abbrev S0 : Shape := ⟨0, ![]⟩

/-- Row p's maximum: the fold of max from −∞ over the row. -/
def rowMax (z : FVec Ideal S2 .f32) (hr : S2.Reduces [1] S1) (p : Fin 4096) : EReal :=
  (Finset.univ : Finset (Fin (S2.size 1))).fold max (Ideal.ofBits .f32 0xFF800000#32) (z ∘ hr.lift (ix1 p))

/-! ## The shift -/

/-- The kernel's shifted logits. -/
def kerShift (z : FVec Ideal S2 .f32) (hr : S2.Reduces [1] S1) (hφ : FKind.Formats .f32)
    (hm : (0xFF800000#32 : BitVec 32) = FKind.maximumf.neutral .f32 hφ) (hc : S1.ShapeCasts Sc) (hb : Sc.Broadcasts S2) :
    FVec Ideal S2 .f32 :=
  subf z (broadcastTo S2 (shapeCast Sc (multiReduction .maximumf [1] S1 z 0xFF800000#32 hr hφ hm) hc) hb)

theorem kerShift_apply (z : FVec Ideal S2 .f32) (hr : S2.Reduces [1] S1) (hφ : FKind.Formats .f32)
    (hm : (0xFF800000#32 : BitVec 32) = FKind.maximumf.neutral .f32 hφ) (hc : S1.ShapeCasts Sc) (hb : Sc.Broadcasts S2)
    (p : Fin 4096) (q : Fin 64) :
    kerShift z hr hφ hm hc hb (ix2 p q) = z (ix2 p q) - rowMax z hr p := by
  simp only [kerShift, subf]
  rw [Ideal.subf_def, broadcastTo_a1_ab_apply, shapeCast_a_a1_apply, Ideal.multiReduction_maximumf_single]
  rfl

theorem refShift_apply (z : FVec Ideal S2 .f32) (hr : S2.Reduces [1] S1) (p : Fin 4096) (q : Fin 64) :
    Cert.ReferenceIdeal.Chain.shifted (F := Ideal) z (ix2 p q) = z (ix2 p q) - rowMax z hr p := by
  simp only [Cert.ReferenceIdeal.Chain.shifted, subf]
  rw [Ideal.subf_def, broadcastInDim_a1_ab_apply, broadcastInDim_a_a1_apply]
  simp only [maximumf]
  rw [broadcastInDim_scalar_apply, Host.reduce_eq_fold_single FloatOps.maximumf z _ _ hr _ (ix1 p)]
  unfold rowMax
  exact congrArg (z (ix2 p q) - ·) (max_eq_right ((Finset.le_fold_max _).mpr (Or.inl le_rfl)))

theorem shift_eq (z : FVec Ideal S2 .f32) (hr : S2.Reduces [1] S1) (hφ : FKind.Formats .f32)
    (hm : (0xFF800000#32 : BitVec 32) = FKind.maximumf.neutral .f32 hφ) (hc : S1.ShapeCasts Sc) (hb : Sc.Broadcasts S2) :
    kerShift z hr hφ hm hc hb = Cert.ReferenceIdeal.Chain.shifted (F := Ideal) z := by
  funext i
  obtain ⟨p, q, rfl⟩ : ∃ (p : Fin 4096) (q : Fin 64), i = ix2 p q := ⟨i 0, i 1, eq_ix2 i⟩
  rw [kerShift_apply, refShift_apply z hr]

/-! ## The log of the row sums -/

theorem kerLogSum_apply (e : FVec Ideal S2 .f32) (hr : S2.Reduces [1] S1) (hφ : FKind.Formats .f32)
    (ha : (0x00000000#32 : BitVec 32) = FKind.add.neutral .f32 hφ) (hc : S1.ShapeCasts Sc) (hb : Sc.Broadcasts S2)
    (p : Fin 4096) (q : Fin 64) :
    broadcastTo S2 (log (shapeCast Sc (multiReduction .add [1] S1 e 0x00000000#32 hr hφ ha) hc)) hb (ix2 p q)
      = Ideal.log (∑ k : Fin (S2.size 1), e (hr.lift (ix1 p) k)) := by
  rw [broadcastTo_a1_ab_apply]
  simp only [Idealize.ShloMosaic.log]
  rw [shapeCast_a_a1_apply, Ideal.multiReduction_add_single, Ideal.log_def]

theorem refLogSum_apply (e : FVec Ideal S2 .f32) (hr : S2.Reduces [1] S1) (hrt : S2.ReducesTo [1] S1) (hu : 0 < S0.numel)
    (h1 : S1.BroadcastsInDim Sc ![0]) (h2 : Sc.BroadcastsInDim S2 ![0, 1]) (p : Fin 4096) (q : Fin 64) :
    broadcastInDim S2 ![0, 1] h2 (Host.log (broadcastInDim Sc ![0] h1 (Host.reduceAdd e (constant S0 .f32 0x00000000#32) hrt hu))) (ix2 p q)
      = Ideal.log (∑ k : Fin (S2.size 1), e (hr.lift (ix1 p) k)) := by
  rw [broadcastInDim_a1_ab_apply]
  simp only [Host.log]
  rw [broadcastInDim_a_a1_apply, Ideal.hostUnary_log_def]
  simp only [Host.reduceAdd, constant]
  rw [Ideal.hostReduceAdd_def, Ideal.hostReduceAdd_single hrt hr, Ideal.ofBits_def, Ideal.ofBits_zero_f32, zero_add]

/-! ## The whole -/

/-- The kernel's log-softmax. -/
def kerLsm (z : FVec Ideal S2 .f32) (hr : S2.Reduces [1] S1) (hφ : FKind.Formats .f32)
    (hm : (0xFF800000#32 : BitVec 32) = FKind.maximumf.neutral .f32 hφ)
    (ha : (0x00000000#32 : BitVec 32) = FKind.add.neutral .f32 hφ) (hc : S1.ShapeCasts Sc) (hb : Sc.Broadcasts S2) :
    FVec Ideal S2 .f32 :=
  subf (kerShift z hr hφ hm hc hb)
    (broadcastTo S2 (log (shapeCast Sc (multiReduction .add [1] S1 (exp (kerShift z hr hφ hm hc hb)) 0x00000000#32 hr hφ ha) hc)) hb)

/-- The two spellings are one function of the logits. -/
theorem lsm_eq (z : FVec Ideal S2 .f32) (hr : S2.Reduces [1] S1) (hφ : FKind.Formats .f32)
    (hm : (0xFF800000#32 : BitVec 32) = FKind.maximumf.neutral .f32 hφ)
    (ha : (0x00000000#32 : BitVec 32) = FKind.add.neutral .f32 hφ) (hc : S1.ShapeCasts Sc) (hb : Sc.Broadcasts S2) :
    kerLsm z hr hφ hm ha hc hb = Cert.ReferenceIdeal.Chain.logSoftmax (F := Ideal) z := by
  unfold kerLsm Cert.ReferenceIdeal.Chain.logSoftmax
  rw [shift_eq]
  funext i
  obtain ⟨p, q, rfl⟩ : ∃ (p : Fin 4096) (q : Fin 64), i = ix2 p q := ⟨i 0, i 1, eq_ix2 i⟩
  simp only [subf]
  rw [kerLogSum_apply, refLogSum_apply _ hr]
  rfl

end Cert.Softmax

end
-- ==== Proof.LayerEq.lean ====
/-
  The kernels' stored values against the reference's layers, on the extended reals.

  Layer 1's kernel sees whole arrays (one grid point): what it stores is the reference's log-softmax of the reference's
  logits — the logits agree entry by entry up to the grouping of the three summands, and the log-softmax is one function
  of the logits.
  Layer 0's kernel sees 2000 rows at a time: entry (p, q) of what it stores depends on row p of its two row blocks only,
  so when those rows are rows r of the whole operand arrays, the entry is entry (r, q) of the reference's layer 0:
  max of the regrouped sum and the literal 0 on both sides.
-/
import proofs.«146863_j87256555586107_1_alg».proof.Proof.Gen.KernelIdeal.Skeleton
import proofs.«146863_j87256555586107_1_alg».proof.Proof.RefChain
import proofs.«146863_j87256555586107_1_alg».proof.Proof.Combine
import proofs.«146863_j87256555586107_1_alg».proof.Proof.Softmax

noncomputable section

namespace Cert.KernelIdeal.LayerEq

open Cert.KernelIdeal Cert.KernelIdeal.Gen Idealize.ShloMosaic Idealize.ShloMosaic.ValueIdx Idealize.ShloMosaic.Keepdims

/-! ## The four products are plain row-by-column products -/

theorem plainK0 : PlainDot.IsPlain (R := 2000) (K := 128) (C := 256) dot_S2000x128_S128x256_S2000x256_1_0_0_1_n_n :=
  ⟨rfl, rfl, rfl, rfl, rfl, rfl⟩
theorem plainK1 : PlainDot.IsPlain (R := 4096) (K := 256) (C := 64) dot_S4096x256_S256x64_S4096x64_1_0_0_1_n_n :=
  ⟨rfl, rfl, rfl, rfl, rfl, rfl⟩
theorem plainR0 : PlainDot.IsPlain (R := 50000) (K := 128) (C := 256) Cert.ReferenceIdeal.dot_S50000x128_S128x256_S50000x256_1_0_0_1_n_n :=
  ⟨rfl, rfl, rfl, rfl, rfl, rfl⟩
theorem plainR1 : PlainDot.IsPlain (R := 4096) (K := 256) (C := 64) Cert.ReferenceIdeal.dot_S4096x256_S256x64_S4096x64_1_0_0_1_n_n :=
  ⟨rfl, rfl, rfl, rfl, rfl, rfl⟩

/-! ## Layer 1 -/

/-- The second kernel's logits, in its grouping. -/
def kerLogits (a h : FVec Ideal S4096x256 .f32) (Wl Wr : FVec Ideal S256x64 .f32) (b : FVec Ideal S64 .f32) : FVec Ideal S4096x64 .f32 :=
  addf (addf (matmul dot_S4096x256_S256x64_S4096x64_1_0_0_1_n_n none (truncf .bf16 (shapeCast S4096x256 a shapeCasts_S4096x256_S4096x256) bitsLt_bf16_f32) (truncf .bf16 Wl bitsLt_bf16_f32) (constant S4096x64 .f32 0x00000000#32))
             (matmul dot_S4096x256_S256x64_S4096x64_1_0_0_1_n_n none (truncf .bf16 (shapeCast S4096x256 h shapeCasts_S4096x256_S4096x256) bitsLt_bf16_f32) (truncf .bf16 Wr bitsLt_bf16_f32) (constant S4096x64 .f32 0x00000000#32)))
       (broadcastTo S4096x64 (shapeCast S1x64 b shapeCasts_S64_S1x64) broadcasts_S1x64_S4096x64)

/-- What the second kernel stores is its log-softmax of its logits. -/
theorem pay1_eq (a h : FVec Ideal S4096x256 .f32) (Wl Wr : FVec Ideal S256x64 .f32) (b : FVec Ideal S64 .f32) :
    k1_pay1 (F := Ideal) a h Wl Wr b
      = Cert.Softmax.kerLsm (kerLogits a h Wl Wr b) reduces_S4096x64_S4096 (.inl rfl) rfl rfl shapeCasts_S4096_S4096x1 broadcasts_S4096x1_S4096x64 := rfl

/-- The two groupings of the logits agree. -/
theorem logits_eq (a h : FVec Ideal S4096x256 .f32) (Wl Wr : FVec Ideal S256x64 .f32) (b : FVec Ideal S64 .f32) :
    kerLogits a h Wl Wr b = Cert.ReferenceIdeal.Chain.logits (F := Ideal) a h Wl b Wr := by
  funext i
  obtain ⟨p, q, rfl⟩ : ∃ (p : Fin 4096) (q : Fin 64), i = ix2 p q := ⟨i 0, i 1, eq_ix2 i⟩
  refine (Cert.Combine.kernel_apply plainK1 a h Wl Wr b _ _ _ _ p q).trans ?_
  refine Eq.trans ?_ (Cert.Combine.reference_apply plainR1 a h Wl Wr b _ _ p q).symm
  exact add_right_comm _ _ _

/-- LAYER 1: what the second kernel stores is the reference's log-softmax of the reference's logits. -/
theorem layer1_eq (a h : FVec Ideal S4096x256 .f32) (Wl Wr : FVec Ideal S256x64 .f32) (b : FVec Ideal S64 .f32) :
    k1_pay1 (F := Ideal) a h Wl Wr b = Cert.ReferenceIdeal.Chain.logSoftmax (F := Ideal) (Cert.ReferenceIdeal.Chain.logits (F := Ideal) a h Wl b Wr) :=
  (pay1_eq a h Wl Wr b).trans
    ((Cert.Softmax.lsm_eq (kerLogits a h Wl Wr b) reduces_S4096x64_S4096 (.inl rfl) rfl rfl shapeCasts_S4096_S4096x1
        broadcasts_S4096x1_S4096x64).trans
      (congrArg (Cert.ReferenceIdeal.Chain.logSoftmax (F := Ideal)) (logits_eq a h Wl Wr b)))

/-! ## Layer 0 -/

/-- LAYER 0, one entry: row p of the kernel's two row blocks being row r of the whole operands. -/
theorem layer0_entry (A X : FVec Ideal ⟨2, ![50000, 128]⟩ .f32) (Wl Wr : FVec Ideal S128x256 .f32) (b : FVec Ideal S256 .f32)
    (ab xb : FVec Ideal S2000x128 .f32) (r : Fin 50000) (p : Fin 2000) (q : Fin 256)
    (ha : ∀ k : Fin 128, ab (ix2 p k) = A (ix2 r k)) (hx : ∀ k : Fin 128, xb (ix2 p k) = X (ix2 r k)) :
    k0_pay1 (F := Ideal) ab xb Wl Wr b (ix2 p q) = Cert.ReferenceIdeal.Chain.lay0 (F := Ideal) A X Wl b Wr (ix2 r q) := by
  have hk : k0_pay1 (F := Ideal) ab xb Wl Wr b (ix2 p q)
      = max ((∑ k : Fin 128, ab (ix2 p k) * Wl (ix2 k q) + ∑ k : Fin 128, xb (ix2 p k) * Wr (ix2 k q)) + b (ix1 q)) 0 :=
    congrArg₂ max (Cert.Combine.kernel_apply plainK0 ab xb Wl Wr b _ _ _ _ p q) Ideal.ofBits_zero_f32
  have hr : Cert.ReferenceIdeal.Chain.lay0 (F := Ideal) A X Wl b Wr (ix2 r q)
      = max ((∑ k : Fin 128, A (ix2 r k) * Wl (ix2 k q) + b (ix1 q)) + ∑ k : Fin 128, X (ix2 r k) * Wr (ix2 k q)) 0 :=
    congrArg₂ max (Cert.Combine.reference_apply plainR0 A X Wl Wr b _ _ r q)
      ((broadcastInDim_scalar_apply _ _ _).trans Ideal.ofBits_zero_f32)
  rw [hk, hr]
  simp only [ha, hx]
  rw [add_right_comm]

end Cert.KernelIdeal.LayerEq

end
-- ==== Proof.Region0.lean ====
/-
  The first region's output array after the run. The 25 grid points tile the [50000, 256] output by blocks of 2000 rows;
  at point t the two row operands' blocks are rows 2000·t … 2000·t + 1999 of their arrays and the weights' and the bias'
  blocks are their whole arrays. Entry (p, q) of what point t writes back is entry (2000·t + p, q) of the reference's first
  layer of the arrays the region finds, and every row r of the array lies in the block of point r / 2000.
-/
import proofs.«146863_j87256555586107_1_alg».proof.Proof.Gen.KernelIdeal.Frame
import proofs.«146863_j87256555586107_1_alg».proof.Proof.LayerEq

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row operands and the output move one block of rows per point; the
    weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The weights' and the bias' blocks are their whole arrays -/

theorem blk2 (c : Dev nD) (t : Fin cfg0.N) : (iblk0 V c 2 t : Vec Ideal S128x256 .f32) = V c main_arg5 := by
  funext y
  obtain ⟨-, -, -, -, e0, e1, -⟩ := idx_facts t
  show V c main_arg5 (((cfg0.win 2).blk t).view.emb y) = V c main_arg5 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem blk3 (c : Dev nD) (t : Fin cfg0.N) : (iblk0 V c 3 t : Vec Ideal S256 .f32) = V c main_arg6 := by
  funext y
  obtain ⟨-, -, -, -, -, -, e0, -⟩ := idx_facts t
  show V c main_arg6 (((cfg0.win 3).blk t).view.emb y) = V c main_arg6 y
  refine congrArg _ (funext fun a => Fin.ext ?_)
  match a with
  | ⟨0, _⟩ => show win0_3.index t (0 : Fin 1) * 256 + 1 * (y 0).val = (y 0).val; omega

theorem blk4 (c : Dev nD) (t : Fin cfg0.N) : (iblk0 V c 4 t : Vec Ideal S128x256 .f32) = V c main_arg7 := by
  funext y
  obtain ⟨-, -, -, -, -, -, -, e0, e1, -⟩ := idx_facts t
  show V c main_arg7 (((cfg0.win 4).blk t).view.emb y) = V c main_arg7 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 256 + 1 * (y 1).val = (y 1).val; omega

/-! ## The output array -/

/-- The reference's first layer of the arrays the region finds. -/
def G (c : Dev nD) : Vec Ideal S50000x256 .f32 :=
  Cert.ReferenceIdeal.Chain.lay0 (F := Ideal) (V c main_v18) (V c main_v19) (V c main_arg5) (V c main_arg6) (V c main_arg7)

/-- What point t writes back is block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x256) hz2, View.ld_unit_zero (S := S256) hz1]
  rw [blk2 V c t, blk3 V c t, blk4 V c t]
  obtain ⟨a00, a01, x00, x01, -, -, -, -, -, o0, o1⟩ := idx_facts t
  have ht : t.val < 25 := t.isLt
  funext y
  obtain ⟨p, q, rfl⟩ : ∃ (p : Fin 2000) (q : Fin 256), y = ix2 p q := ⟨y 0, y 1, eq_ix2 y⟩
  have hp : p.val < 2000 := p.isLt
  have hemb : ((cfg0.win 5).blk t).view.emb (ix2 p q) = ix2 (⟨t.val * 2000 + p.val, by omega⟩ : Fin 50000) q := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  show k0_pay1 (F := Ideal) (iblk0 V c 0 t) (iblk0 V c 1 t) (V c main_arg5) (V c main_arg7) (V c main_arg6) (ix2 p q)
    = G V c (((cfg0.win 5).blk t).view.emb (ix2 p q))
  rw [hemb]
  refine LayerEq.layer0_entry (V c main_v18) (V c main_v19) (V c main_arg5) (V c main_arg7) (V c main_arg6)
    (iblk0 V c 0 t) (iblk0 V c 1 t) (⟨t.val * 2000 + p.val, by omega⟩ : Fin 50000) p q ?_ ?_
  · intro k
    show V c main_v18 (((cfg0.win 0).blk t).view.emb (ix2 p k)) = V c main_v18 (ix2 (⟨t.val * 2000 + p.val, by omega⟩ : Fin 50000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · intro k
    show V c main_v19 (((cfg0.win 1).blk t).view.emb (ix2 p k)) = V c main_v19 (ix2 (⟨t.val * 2000 + p.val, by omega⟩ : Fin 50000) k)
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega

/-- Row r lies in the block of point r / 2000. -/
theorem cover (i : S50000x256.Idx) : ∃ t : Fin cfg0.N, (cfg0.win 5).flush t = true ∧ i ∈ ((cfg0.win 5).blk t).view.set := by
  have h0 : (i 0).val < 50000 := idx2_lt0 i
  have h1 : (i 1).val < 256 := idx2_lt1 i
  obtain ⟨t, ht⟩ : ∃ t : Fin cfg0.N, t.val = (i 0).val / 2000 := ⟨⟨(i 0).val / 2000, by show _ < 25; omega⟩, rfl⟩
  obtain ⟨-, -, -, -, -, -, -, -, -, o0, o1⟩ := idx_facts t
  refine ⟨t, flush0_5 t, ?_⟩
  show i ∈ ((View.whole main_v20).slice (win0_5.rect t)).set
  rw [View.set_slice_whole, Rect.mem_set_unit]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE ARRAY after the region: the reference's first layer of what the region finds. -/
theorem arr (c : Dev nD) : (dat0 V c).arrAt 5 cfg0.N = G V c :=
  (dat0 V c).arrAt_eq_of_cover 5 (G V c) (fun t _ => flushed_eq V c t) (fun i => cover i)

end Cert.KernelIdeal.Region0

end
-- ==== Proof.Region1.lean ====
/-
  The second region's output array after the run. The region has one grid point and every window's block is its whole
  array, so the array ends at what the kernel stores of the whole operand arrays: the reference's log-softmax of the
  reference's logits of those arrays.
-/
import proofs.«146863_j87256555586107_1_alg».proof.Proof.Gen.KernelIdeal.Frame
import proofs.«146863_j87256555586107_1_alg».proof.Proof.LayerEq

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- At the one grid point every window's block index is 0 on every axis. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## Each input window's one block is its whole array -/

theorem blk0 (c : Dev nD) (t : Fin cfg1.N) : (iblk1 V c 0 t : Vec Ideal S4096x256 .f32) = V c main_v39 := by
  funext y
  obtain ⟨e0, e1, -⟩ := idx_facts t
  show V c main_v39 (((cfg1.win 0).blk t).view.emb y) = V c main_v39 y
  refine congrArg _ (funext fun a => Fin.ext ?_)
  match a with
  | ⟨0, _⟩ => show win1_0.index t (0 : Fin 2) * 4096 + 1 * (y 0).val = (y 0).val; omega
  | ⟨1, _⟩ => show win1_0.index t (1 : Fin 2) * 256 + 1 * (y 1).val = (y 1).val; omega

theorem blk1 (c : Dev nD) (t : Fin cfg1.N) : (iblk1 V c 1 t : Vec Ideal S4096x256 .f32) = V c main_v40 := by
  funext y
  obtain ⟨-, -, e0, e1, -⟩ := idx_facts t
  show V c main_v40 (((cfg1.win 1).blk t).view.emb y) = V c main_v40 y
  refine congrArg _ (funext fun a => Fin.ext ?_)
  match a with
  | ⟨0, _⟩ => show win1_1.index t (0 : Fin 2) * 4096 + 1 * (y 0).val = (y 0).val; omega
  | ⟨1, _⟩ => show win1_1.index t (1 : Fin 2) * 256 + 1 * (y 1).val = (y 1).val; omega

theorem blk2 (c : Dev nD) (t : Fin cfg1.N) : (iblk1 V c 2 t : Vec Ideal S256x64 .f32) = V c main_arg8 := by
  funext y
  obtain ⟨-, -, -, -, e0, e1, -⟩ := idx_facts t
  show V c main_arg8 (((cfg1.win 2).blk t).view.emb y) = V c main_arg8 y
  refine congrArg _ (funext fun a => Fin.ext ?_)
  match a with
  | ⟨0, _⟩ => show win1_2.index t (0 : Fin 2) * 256 + 1 * (y 0).val = (y 0).val; omega
  | ⟨1, _⟩ => show win1_2.index t (1 : Fin 2) * 64 + 1 * (y 1).val = (y 1).val; omega

theorem blk3 (c : Dev nD) (t : Fin cfg1.N) : (iblk1 V c 3 t : Vec Ideal S64 .f32) = V c main_arg9 := by
  funext y
  obtain ⟨-, -, -, -, -, -, e0, -⟩ := idx_facts t
  show V c main_arg9 (((cfg1.win 3).blk t).view.emb y) = V c main_arg9 y
  refine congrArg _ (funext fun a => Fin.ext ?_)
  match a with
  | ⟨0, _⟩ => show win1_3.index t (0 : Fin 1) * 64 + 1 * (y 0).val = (y 0).val; omega

theorem blk4 (c : Dev nD) (t : Fin cfg1.N) : (iblk1 V c 4 t : Vec Ideal S256x64 .f32) = V c main_arg10 := by
  funext y
  obtain ⟨-, -, -, -, -, -, -, e0, e1, -⟩ := idx_facts t
  show V c main_arg10 (((cfg1.win 4).blk t).view.emb y) = V c main_arg10 y
  refine congrArg _ (funext fun a => Fin.ext ?_)
  match a with
  | ⟨0, _⟩ => show win1_4.index t (0 : Fin 2) * 256 + 1 * (y 0).val = (y 0).val; omega
  | ⟨1, _⟩ => show win1_4.index t (1 : Fin 2) * 64 + 1 * (y 1).val = (y 1).val; omega

/-! ## The output array -/

/-- The reference's second layer of the arrays the region finds. -/
def G (c : Dev nD) : Vec Ideal S4096x64 .f32 :=
  Cert.ReferenceIdeal.Chain.logSoftmax (F := Ideal) (Cert.ReferenceIdeal.Chain.logits (F := Ideal) (V c main_v39) (V c main_v40) (V c main_arg8) (V c main_arg9) (V c main_arg10))

/-- What the one grid point writes back is the whole of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S4096x256) hz2, View.ld_unit_zero (S := S256x64) hz2, View.ld_unit_zero (S := S64) hz1]
  rw [blk0 V c t, blk1 V c t, blk2 V c t, blk3 V c t, blk4 V c t, LayerEq.layer1_eq]
  obtain ⟨-, -, -, -, -, -, -, -, -, e0, e1⟩ := idx_facts t
  funext y
  show G V c y = G V c (((cfg1.win 5).blk t).view.emb y)
  refine congrArg _ (funext fun a => Fin.ext ?_)
  match a with
  | ⟨0, _⟩ => show (y 0).val = win1_5.index t (0 : Fin 2) * 4096 + 1 * (y 0).val; omega
  | ⟨1, _⟩ => show (y 1).val = win1_5.index t (1 : Fin 2) * 64 + 1 * (y 1).val; omega

/-- The one block covers the array. -/
theorem cover (i : S4096x64.Idx) : ∃ t : Fin cfg1.N, (cfg1.win 5).flush t = true ∧ i ∈ ((cfg1.win 5).blk t).view.set := by
  have h0 : (i 0).val < 4096 := idx2_lt0 i
  have h1 : (i 1).val < 64 := idx2_lt1 i
  obtain ⟨t⟩ : Nonempty (Fin cfg1.N) := ⟨⟨0, by decide⟩⟩
  obtain ⟨-, -, -, -, -, -, -, -, -, e0, e1⟩ := idx_facts t
  refine ⟨t, flush1_5 t, ?_⟩
  show i ∈ ((View.whole main_v41).slice (win1_5.rect t)).set
  rw [View.set_slice_whole, Rect.mem_set_unit]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 64 ≤ (i 1).val ∧ (i 1).val < win1_5.index t (1 : Fin 2) * 64 + 64; omega

/-- THE ARRAY after the region: the reference's second layer of what the region finds. -/
theorem arr (c : Dev nD) : (dat1 V c).arrAt 5 cfg1.N = G V c :=
  (dat1 V c).arrAt_eq_of_cover 5 (G V c) (fun t _ => flushed_eq V c t) (fun i => cover i)

end Cert.KernelIdeal.Region1

end
-- ==== Proof.KerWhole.lean ====
/-
  The kernel program's run, stated over the named layers. At the first region's exit its output array is the
  reference's first layer of what the region found (the aggregated rows and the head rows of the features, the layer's
  weights and bias): the reference's hidden features. The second region finds the aggregate and the head rows of THAT
  array and the second layer's weights and bias, and leaves the reference's second layer of them in the result array. So
  the result is the reference's whole function of the eleven arguments.
-/
import proofs.«146863_j87256555586107_1_alg».proof.Proof.RunResult
import proofs.«146863_j87256555586107_1_alg».proof.Proof.KerHost
import proofs.«146863_j87256555586107_1_alg».proof.Proof.Region0
import proofs.«146863_j87256555586107_1_alg».proof.Proof.Region1

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first region's output array at its exit: the hidden features. -/
theorem hidden_eq (c : Dev nD) :
    W2 m ρ c (Proc.devRef .tc main_v20) = Cert.ReferenceIdeal.Chain.hidden (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) := by
  refine ((W2_arr m ρ c 5).trans (Region0.arr (V1 m ρ) c)).trans ?_
  unfold Region0.G Cert.ReferenceIdeal.Chain.hidden
  rw [HostRead.V1_v18, HostRead.V1_v19, HostRead.V1_arg5, HostRead.V1_arg6, HostRead.V1_arg7]

/-- The result array at the last boundary: the reference's two layers of the arguments. -/
theorem result_eq (c : Dev nD) :
    W4 m ρ c (Proc.devRef .tc main_v41) = Cert.ReferenceIdeal.Chain.whole (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine ((W4_arr m ρ c 5).trans (Region1.arr (V3 m ρ) c)).trans ?_
  unfold Region1.G Cert.ReferenceIdeal.Chain.whole
  rw [HostRead.V3_v39, HostRead.V3_v40, HostRead.V3_arg8, HostRead.V3_arg9, HostRead.V3_arg10, hidden_eq]

/-- Every weakly fair execution of the kernel program terminates with its result at the reference's two layers of the
    arguments, the arguments unchanged. -/
theorem run : θ_run defs (onTc (τ := τ) (main (F := Ideal))) ⟨m, fun _ => 0, ρ⟩ fun r => ∀ c : Dev nD,
      r.2.mem ((c.tc : Thread nD τ).loc main_v41) = Cert.ReferenceIdeal.Chain.whole (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (result_eq m ρ c), (h c).2⟩) (RunResult.run_result m ρ)

end Cert.KernelIdeal.Whole

end
-- ==== Proof.lean ====
/-
  The two programs compute one function, read on the extended reals.

  Both are two layers of a graph convolution with mean aggregation. A layer aggregates (the mean over each target node's
  incoming edges of the source nodes' rows) and combines: the aggregate times one weight matrix, plus a bias row, plus the
  target nodes' own rows times a second weight matrix; layer 0 ends in max(·, 0), layer 1 in a row-wise log-softmax.
  The reference does all of it on the host. The kernel program does the aggregation on the host — with the very same
  operations — and each combine (with the layer's last step) in a TensorCore kernel: layer 0 over 25 blocks of 2000 rows,
  layer 1 in one block. The kernels round their matrix operands to bf16, which is the identity on extended reals; their
  matrix products into a zero accumulator are plain sums; they add the bias after the second product where the reference
  adds it after the first, and addition of extended reals is commutative and associative; the reference's extra
  max(−∞, ·) on the row maximum is the identity. No step uses finiteness of the inputs.

  So both runs end with the result array at one and the same function of the eleven arguments, `Chain.whole`:
  the reference by its run read back, the kernel program by its frame run with the result array's last contents kept,
  the two regions' output arrays read block by block, and the host stretches read as the reference's own chains.
  The three frames are the runs with the results dropped; the idealization rewrote nothing, so `preserves` is trivial.
-/
import proofs.«146863_j87256555586107_1_alg».proof.Defs
import proofs.«146863_j87256555586107_1_alg».proof.Proof.Gen.Kernel
import proofs.«146863_j87256555586107_1_alg».proof.Proof.Gen.Kernel.Skeleton
import proofs.«146863_j87256555586107_1_alg».proof.Proof.Gen.Kernel.Launch
import proofs.«146863_j87256555586107_1_alg».proof.Proof.Gen.Kernel.Points
import proofs.«146863_j87256555586107_1_alg».proof.Proof.Gen.Kernel.Frame
import proofs.«146863_j87256555586107_1_alg».proof.Proof.Gen.KernelIdeal
import proofs.«146863_j87256555586107_1_alg».proof.Proof.Gen.KernelIdeal.Skeleton
import proofs.«146863_j87256555586107_1_alg».proof.Proof.Gen.KernelIdeal.Launch
import proofs.«146863_j87256555586107_1_alg».proof.Proof.Gen.KernelIdeal.Points
import proofs.«146863_j87256555586107_1_alg».proof.Proof.Gen.KernelIdeal.Frame
import proofs.«146863_j87256555586107_1_alg».proof.Proof.Gen.ReferenceIdeal
import proofs.«146863_j87256555586107_1_alg».proof.Proof.Gen.Pre_finite_inputs
import proofs.«146863_j87256555586107_1_alg».proof.Proof.RefWhole
import proofs.«146863_j87256555586107_1_alg».proof.Proof.KerWhole
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefWhole.run (F := Ideal) m ρ)

/-- From memories that agree on the arguments both programs end with the result array at `Chain.whole` of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefWhole.run (F := Ideal) m' ρ')
  obtain ⟨g0, g1, g2, g3, g4, g5, g6, g7, g8, g9, g10⟩ := hagree c
  rw [g0, g1, g2, g3, g4, g5, g6, g7, g8, g9, g10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
